-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KHost.lean ====
/-
  The host side of the kernel's program, as functions of what it reads. From the edge list (two rows of 800000 node
  numbers: sources, then destinations) the program takes the source row and the destination row, and from the
  destinations the reciprocal in-degree of every node, with nodes of in-degree zero given one. One aggregation of a
  feature array `h` gathers row `src(e)` of `h` for every edge `e` (a negative source counted from the end), adds the
  gathered rows into the rows `dst(e)` of a zero array, and scales row `n` by the reciprocal in-degree of `n`. The
  program aggregates twice, the input features before the first launch and the first launch's result before the
  second, with the same three edge-derived arrays. Nothing here looks inside the gather or the scatter.
-/
import proofs.«150871_j80075370266803_1_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The edges' source nodes. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- One over the larger of a node's in-degree and one, as a column. -/
def invDeg (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32))))

/-- The mean of the features of a node's in-neighbours (zero where it has none). -/
def aggMean (src dst : (⟨S800000, .i32⟩ : BufTy).Contents (Elt F)) (inv : (⟨S50000x1, .f32⟩ : BufTy).Contents (Elt F))
    (h : (⟨S50000x128, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 inv)

variable (m : (ℓ : Loc nD τ sig) → Buf (Elt F) ℓ) (ρ : Dev nD → PrngReg)

/-! ## Before the first launch -/

theorem W1_src (c : Dev nD) : W1 m ρ c (Proc.devRef .tc main_v1) = srcOf (m ((c : Thread nD τ).loc main_arg1)) := by
  show StableHlo.after hostOps0 (W0 m ρ c) (Proc.devRef .tc main_v1) = _
  after_results_simp
  rfl

theorem W1_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

theorem W1_inv (c : Dev nD) : W1 m ρ c (Proc.devRef .tc main_v12) = invDeg (dstOf (m ((c : Thread nD τ).loc main_arg1))) := by
  show StableHlo.after hostOps0 (W0 m ρ c) (Proc.devRef .tc main_v12) = _
  after_results_simp
  rfl

theorem W1_agg (c : Dev nD) : W1 m ρ c (Proc.devRef .tc main_v24)
    = aggMean (srcOf (m ((c : Thread nD τ).loc main_arg1))) (dstOf (m ((c : Thread nD τ).loc main_arg1)))
        (invDeg (dstOf (m ((c : Thread nD τ).loc main_arg1)))) (m ((c : Thread nD τ).loc main_arg0)) := by
  show StableHlo.after hostOps0 (W0 m ρ c) (Proc.devRef .tc main_v24) = _
  after_results_simp
  rfl

/-! ## Between the launches -/

theorem W3_agg (c : Dev nD) : W3 m ρ c (Proc.devRef .tc main_v37)
    = aggMean (W2 m ρ c (Proc.devRef .tc main_v1)) (W2 m ρ c (Proc.devRef .tc main_v3))
        (W2 m ρ c (Proc.devRef .tc main_v12)) (W2 m ρ c (Proc.devRef .tc main_v25)) := by
  show StableHlo.after hostOps1 (W2 m ρ c) (Proc.devRef .tc main_v37) = _
  after_results_simp
  rfl

end Cert.KernelIdeal.HostSide

end
-- ==== Proof.KBody.lean ====
/-
  What one launch of the fused kernel writes into entry (p, q) of its output block, on the extended reals. The block
  holds 5000 consecutive nodes. The kernel multiplies the block of aggregated features by the whole neighbour weight
  matrix, adds the bias row to every row, adds the block of own features times the whole self weight matrix, and (first
  stage only) clips at zero. The roundings to bf16 before the two products are the identity here, and a product
  accumulated into zero is the plain sum over the 128 shared coordinates.
-/
import proofs.«150871_j80075370266803_1_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Idealize.ShloMosaic.TcCoe

/-! ## The block product at an entry -/

theorem lhs_blockdot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blockdot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blockdot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blockdot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times a whole weight matrix, accumulated into zero: entry (p, q) is the sum over the shared
    coordinate of row p of the block against column q of the matrix. -/
theorem blockdot_apply {φ₁ φ₂ : FTy} (x : FVec Ideal S5000x128 φ₁) (w : FVec Ideal S128x128 φ₂) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er]

/-! ## The bias row under every row of the block -/

/-- The bias viewed as one row and repeated down the block: entry (p, q) is the bias at q. -/
theorem biasrow_apply {α : Type} (b : S128.Idx → α) (p : Fin 5000) (q : Fin 128) :
    broadcastTo S5000x128 (shapeCast S1x128 b shapeCasts_S128_S1x128) broadcasts_S1x128_S5000x128 (ix2 p q) = b (ix1 q) := by
  rw [broadcastTo_apply _ broadcasts_S1x128_S5000x128 (ix2 p q) (ix2 (0 : Fin 1) q) (fun a => by
    match a with
    | ⟨0, _⟩ => show (0 : ℕ) = if (1 : ℕ) = 1 then 0 else p.val; rw [if_pos rfl]
    | ⟨1, _⟩ => show q.val = if (128 : ℕ) = 1 then 0 else q.val; rw [if_neg (by decide)])]
  exact shapeCast_apply b shapeCasts_S128_S1x128 (ix2 (0 : Fin 1) q) (ix1 q)
    (by rw [Shape.rowMajor_val_two, Shape.rowMajor_val_one]; show q.val = 0 * 128 + q.val; omega)

/-! ## The two bodies at an entry -/

/-- First stage: the clipped sum. -/
theorem first_apply (a h : Vec Ideal S5000x128 .f32) (wl wr : Vec Ideal S128x128 .f32) (b : Vec Ideal S128 .f32)
    (p : Fin 5000) (q : Fin 128) :
    k0_pay1 (F := Ideal) a h wl wr b (ix2 p q)
      = max (((∑ k : Fin 128, a (ix2 p k) * wl (ix2 k q)) + b (ix1 q)) + ∑ k : Fin 128, h (ix2 p k) * wr (ix2 k q)) 0 := by
  unfold k0_pay1
  rw [shapeCast_self, maximumf_apply, addf_apply, addf_apply, blockdot_apply, blockdot_apply, biasrow_apply, broadcast_apply]
  show max _ (Ideal.ofBits .f32 0x00000000#32) = _
  rw [Ideal.ofBits_zero_f32]
  rfl

/-- Second stage: the sum as it is. -/
theorem second_apply (a h : Vec Ideal S5000x128 .f32) (wl wr : Vec Ideal S128x128 .f32) (b : Vec Ideal S128 .f32)
    (p : Fin 5000) (q : Fin 128) :
    k1_pay1 (F := Ideal) a h wl wr b (ix2 p q)
      = ((∑ k : Fin 128, a (ix2 p k) * wl (ix2 k q)) + b (ix1 q)) + ∑ k : Fin 128, h (ix2 p k) * wr (ix2 k q) := by
  unfold k1_pay1
  rw [shapeCast_self, shapeCast_self, addf_apply, addf_apply, blockdot_apply, blockdot_apply, biasrow_apply]
  rfl

end Cert.KernelIdeal.Body

end
-- ==== Proof.Spec.lean ====
/-
  One GraphSAGE stage on the extended reals. From the mean-aggregated neighbour features `agg` and the nodes' own
  features `h` (both [50000, 128]), two weight matrices [128, 128] and a bias [128], entry (r, c) of the stage is

      (Σ_k agg(r, k) · Wl(k, c)  +  b(c))  +  Σ_k h(r, k) · Wr(k, c),

  in exactly this grouping: the neighbour product first, the bias added to it, the self product added last. Both
  programs add in this order, so no law of the extended reals beyond the equality of the summands is needed, and
  nothing has to be finite. The first stage is followed by max(·, 0); the second is not.
-/
import Idealize.ShloMosaic.PureOps.Ideal
import Idealize.ShloMosaic.Lib.ValueIdx

noncomputable section

open scoped BigOperators

namespace Cert.Sage

open Idealize.ShloMosaic Idealize.ShloMosaic.ValueIdx

/-- Node features: one row of 128 per node. -/
abbrev Nodes : Shape := ⟨2, ![50000, 128]⟩
/-- A weight matrix. -/
abbrev Weights : Shape := ⟨2, ![128, 128]⟩
/-- A bias row. -/
abbrev Bias : Shape := ⟨1, ![128]⟩

/-- Entry (r, c) of one stage. -/
def stageAt (agg h : Nodes.Idx → EReal) (Wl : Weights.Idx → EReal) (b : Bias.Idx → EReal) (Wr : Weights.Idx → EReal)
    (r : Fin 50000) (c : Fin 128) : EReal :=
  ((∑ k : Fin 128, agg (ix2 r k) * Wl (ix2 k c)) + b (ix1 c)) + ∑ k : Fin 128, h (ix2 r k) * Wr (ix2 k c)

/-- The second stage: no activation. -/
def stage (agg h : Nodes.Idx → EReal) (Wl : Weights.Idx → EReal) (b : Bias.Idx → EReal) (Wr : Weights.Idx → EReal) :
    Nodes.Idx → EReal :=
  fun i => stageAt agg h Wl b Wr (i 0) (i 1)

/-- The first stage: clipped below at zero. -/
def stageRelu (agg h : Nodes.Idx → EReal) (Wl : Weights.Idx → EReal) (b : Bias.Idx → EReal) (Wr : Weights.Idx → EReal) :
    Nodes.Idx → EReal :=
  fun i => max (stageAt agg h Wl b Wr (i 0) (i 1)) 0

theorem stage_ix2 (agg h : Nodes.Idx → EReal) (Wl : Weights.Idx → EReal) (b : Bias.Idx → EReal) (Wr : Weights.Idx → EReal)
    (r : Fin 50000) (c : Fin 128) : stage agg h Wl b Wr (ix2 r c) = stageAt agg h Wl b Wr r c := rfl

theorem stageRelu_ix2 (agg h : Nodes.Idx → EReal) (Wl : Weights.Idx → EReal) (b : Bias.Idx → EReal) (Wr : Weights.Idx → EReal)
    (r : Fin 50000) (c : Fin 128) : stageRelu agg h Wl b Wr (ix2 r c) = max (stageAt agg h Wl b Wr r c) 0 := rfl

end Cert.Sage

end
-- ==== Proof.KBlocks.lean ====
/-
  From the blocks to the arrays. Each launch runs over ten grid points; point t works on nodes 5000·t … 5000·t + 4999:
  it reads those rows of the aggregate and of the features, the two whole weight matrices and the whole bias, and writes
  those rows of the result. So what point t writes back is rows 5000·t … of ONE function of the arrays the launch found,
  the stage function, and the ten blocks tile the result array: after the launch the result array is the stage
  function of the arrays at the launch's entry.
-/
import proofs.«150871_j80075370266803_1_alg».proof.Proof.Gen.KernelIdeal.Frame
import proofs.«150871_j80075370266803_1_alg».proof.Proof.KBody
import proofs.«150871_j80075370266803_1_alg».proof.Proof.Spec
import Idealize.ShloMosaic.Lib.Pipeline.Value

set_option maxRecDepth 16384

noncomputable section

open scoped BigOperators

namespace Cert.KernelIdeal.Blocks

open Cert.KernelIdeal Cert.KernelIdeal.Gen Cert.KernelIdeal.Body
open Idealize.ShloMosaic Idealize.ShloMosaic.ValueIdx Idealize.ShloMosaic.TcCoe Idealize.SL.Sem
open Idealize.ShloMosaic.Pipeline (Dat Cfg Window)

/-! ## One entry of one block against one entry of the stage function -/

/-- First stage. Row p of the block is node r of the arrays; the weights and the bias are whole. -/
theorem point_first (a h : Vec Ideal S5000x128 .f32) (wl wr : Vec Ideal S128x128 .f32) (b : Vec Ideal S128 .f32)
    (A H : Cert.Sage.Nodes.Idx → EReal) (WL WR : Cert.Sage.Weights.Idx → EReal) (B : Cert.Sage.Bias.Idx → EReal)
    (p : Fin 5000) (q : Fin 128) (r : Fin 50000)
    (ha : ∀ k : Fin 128, a (ix2 p k) = A (ix2 r k)) (hh : ∀ k : Fin 128, h (ix2 p k) = H (ix2 r k))
    (hwl : ∀ k : Fin 128, wl (ix2 k q) = WL (ix2 k q)) (hwr : ∀ k : Fin 128, wr (ix2 k q) = WR (ix2 k q))
    (hb : b (ix1 q) = B (ix1 q)) :
    k0_pay1 (F := Ideal) a h wl wr b (ix2 p q) = Cert.Sage.stageRelu A H WL B WR (ix2 r q) := by
  rw [first_apply, Cert.Sage.stageRelu_ix2]
  unfold Cert.Sage.stageAt
  simp only [ha, hh, hwl, hwr, hb]

/-- Second stage. -/
theorem point_second (a h : Vec Ideal S5000x128 .f32) (wl wr : Vec Ideal S128x128 .f32) (b : Vec Ideal S128 .f32)
    (A H : Cert.Sage.Nodes.Idx → EReal) (WL WR : Cert.Sage.Weights.Idx → EReal) (B : Cert.Sage.Bias.Idx → EReal)
    (p : Fin 5000) (q : Fin 128) (r : Fin 50000)
    (ha : ∀ k : Fin 128, a (ix2 p k) = A (ix2 r k)) (hh : ∀ k : Fin 128, h (ix2 p k) = H (ix2 r k))
    (hwl : ∀ k : Fin 128, wl (ix2 k q) = WL (ix2 k q)) (hwr : ∀ k : Fin 128, wr (ix2 k q) = WR (ix2 k q))
    (hb : b (ix1 q) = B (ix1 q)) :
    k1_pay1 (F := Ideal) a h wl wr b (ix2 p q) = Cert.Sage.stage A H WL B WR (ix2 r q) := by
  rw [second_apply, Cert.Sage.stage_ix2]
  unfold Cert.Sage.stageAt
  simp only [ha, hh, hwl, hwr, hb]

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

-- BEGIN first launch
/-! ## The first launch -/

/-- Where the windows sit at point t: the two row-blocked inputs and the output on block t, the weights and the bias
    on their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed0 (c : Dev nD) (t : Fin cfg0.N) :
    (dat0 V c).flushed 5 t = ((cfg0.win 5).blk t).view.read (Elt Ideal)
      (Cert.Sage.stageRelu (V c main_v24) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨e00, e01, e10, e11, e20, e21, e30, e40, e41, e50, e51⟩ := idx0 t
  have hN : t.val < 10 := by have h10 : cfg0.N = 10 := N_0; have := t.isLt; omega
  have hR : t.val * 5000 + p.val < 50000 := by have := p.isLt; omega
  show k0_pay1 (F := Ideal) (iblk0 V c 0 t) (iblk0 V c 1 t) (iblk0 V c 2 t) (iblk0 V c 4 t) (iblk0 V c 3 t) (ix2 p q)
    = Cert.Sage.stageRelu (V c main_v24) (V c main_arg0) (V c main_arg2) (V c main_arg3) (V c main_arg4)
        (((cfg0.win 5).blk t).view.emb (ix2 p q))
  have hemb : ((cfg0.win 5).blk t).view.emb (ix2 p q) = ix2 (⟨t.val * 5000 + p.val, hR⟩ : Fin 50000) q :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  rw [hemb]
  refine point_first (iblk0 V c 0 t) (iblk0 V c 1 t) (iblk0 V c 2 t) (iblk0 V c 4 t) (iblk0 V c 3 t)
    (V c main_v24) (V c main_arg0) (V c main_arg2) (V c main_arg4) (V c main_arg3) p q ⟨t.val * 5000 + p.val, hR⟩ ?_ ?_ ?_ ?_ ?_
  · intro k
    show V c main_v24 (((cfg0.win 0).blk t).view.emb (ix2 p k)) = _
    exact congrArg (V c main_v24) (funext fun a => Fin.ext (by
      match a with
      | ⟨0, _⟩ => show win0_0.index t (0 : Fin 2) * 5000 + 1 * p.val = t.val * 5000 + p.val; omega
      | ⟨1, _⟩ => show win0_0.index t (1 : Fin 2) * 128 + 1 * k.val = k.val; omega))
  · intro k
    show V c main_arg0 (((cfg0.win 1).blk t).view.emb (ix2 p k)) = _
    exact congrArg (V c main_arg0) (funext fun a => Fin.ext (by
      match a with
      | ⟨0, _⟩ => show win0_1.index t (0 : Fin 2) * 5000 + 1 * p.val = t.val * 5000 + p.val; omega
      | ⟨1, _⟩ => show win0_1.index t (1 : Fin 2) * 128 + 1 * k.val = k.val; omega))
  · intro k
    show V c main_arg2 (((cfg0.win 2).blk t).view.emb (ix2 k q)) = _
    exact congrArg (V c main_arg2) (funext fun a => Fin.ext (by
      match a with
      | ⟨0, _⟩ => show win0_2.index t (0 : Fin 2) * 128 + 1 * k.val = k.val; omega
      | ⟨1, _⟩ => show win0_2.index t (1 : Fin 2) * 128 + 1 * q.val = q.val; omega))
  · intro k
    show V c main_arg4 (((cfg0.win 4).blk t).view.emb (ix2 k q)) = _
    exact congrArg (V c main_arg4) (funext fun a => Fin.ext (by
      match a with
      | ⟨0, _⟩ => show win0_4.index t (0 : Fin 2) * 128 + 1 * k.val = k.val; omega
      | ⟨1, _⟩ => show win0_4.index t (1 : Fin 2) * 128 + 1 * q.val = q.val; omega))
  · show V c main_arg3 (((cfg0.win 3).blk t).view.emb (ix1 q)) = _
    exact congrArg (V c main_arg3) (funext fun a => Fin.ext (by
      match a with
      | ⟨0, _⟩ => show win0_3.index t (0 : Fin 1) * 128 + 1 * q.val = q.val; omega))

/-- An index of the result array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Node r is written by the point r / 5000: the ten blocks tile the result array. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have h10 : cfg0.N = 10 := N_0
  have ht : (i 0).val / 5000 < cfg0.N := by omega
  obtain ⟨-, -, -, -, -, -, -, -, -, e50, e51⟩ := idx0 ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- After the first launch its result array is the clipped stage function of the arrays the launch found. -/
theorem final0 (c : Dev nD) : (dat0 V c).arrAt 5 cfg0.N
    = Cert.Sage.stageRelu (V c main_v24) (V c main_arg0) (V c main_arg2) (V c main_arg3) (V c main_arg4) :=
  (dat0 V c).arrAt_eq_of_cover 5 _ (fun t _ => flushed0 V c t) cover0
-- END first launch

end Cert.KernelIdeal.Blocks

end
-- ==== Proof.KBlocks1.lean ====
/-
  From the blocks to the array, for the second launch: the same ten row blocks of 5000 nodes, the same reading of a
  block's entry as an entry of the stage function, over the arrays the second launch finds.
-/
import proofs.«150871_j80075370266803_1_alg».proof.Proof.KBlocks

set_option maxRecDepth 16384

noncomputable section

open scoped BigOperators

namespace Cert.KernelIdeal.Blocks

open Cert.KernelIdeal Cert.KernelIdeal.Gen Cert.KernelIdeal.Body
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-! ## The second launch -/

/-- Where the windows sit at point t: the two row-blocked inputs and the output on block t, the weights and the bias
    on their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed1 (c : Dev nD) (t : Fin cfg1.N) :
    (dat1 V c).flushed 5 t = ((cfg1.win 5).blk t).view.read (Elt Ideal)
      (Cert.Sage.stage (V c main_v37) (V c main_v25) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨e00, e01, e10, e11, e20, e21, e30, e40, e41, e50, e51⟩ := idx1 t
  have hN : t.val < 10 := by have h10 : cfg1.N = 10 := N_1; have := t.isLt; omega
  have hR : t.val * 5000 + p.val < 50000 := by have := p.isLt; omega
  show k1_pay1 (F := Ideal) (iblk1 V c 0 t) (iblk1 V c 1 t) (iblk1 V c 2 t) (iblk1 V c 4 t) (iblk1 V c 3 t) (ix2 p q)
    = Cert.Sage.stage (V c main_v37) (V c main_v25) (V c main_arg5) (V c main_arg6) (V c main_arg7)
        (((cfg1.win 5).blk t).view.emb (ix2 p q))
  have hemb : ((cfg1.win 5).blk t).view.emb (ix2 p q) = ix2 (⟨t.val * 5000 + p.val, hR⟩ : Fin 50000) q :=
    funext fun a => Fin.ext (by
      match a with
      | ⟨0, _⟩ => show win1_5.index t (0 : Fin 2) * 5000 + 1 * p.val = t.val * 5000 + p.val; omega
      | ⟨1, _⟩ => show win1_5.index t (1 : Fin 2) * 128 + 1 * q.val = q.val; omega)
  rw [hemb]
  refine point_second (iblk1 V c 0 t) (iblk1 V c 1 t) (iblk1 V c 2 t) (iblk1 V c 4 t) (iblk1 V c 3 t)
    (V c main_v37) (V c main_v25) (V c main_arg5) (V c main_arg7) (V c main_arg6) p q ⟨t.val * 5000 + p.val, hR⟩ ?_ ?_ ?_ ?_ ?_
  · intro k
    show V c main_v37 (((cfg1.win 0).blk t).view.emb (ix2 p k)) = _
    exact congrArg (V c main_v37) (funext fun a => Fin.ext (by
      match a with
      | ⟨0, _⟩ => show win1_0.index t (0 : Fin 2) * 5000 + 1 * p.val = t.val * 5000 + p.val; omega
      | ⟨1, _⟩ => show win1_0.index t (1 : Fin 2) * 128 + 1 * k.val = k.val; omega))
  · intro k
    show V c main_v25 (((cfg1.win 1).blk t).view.emb (ix2 p k)) = _
    exact congrArg (V c main_v25) (funext fun a => Fin.ext (by
      match a with
      | ⟨0, _⟩ => show win1_1.index t (0 : Fin 2) * 5000 + 1 * p.val = t.val * 5000 + p.val; omega
      | ⟨1, _⟩ => show win1_1.index t (1 : Fin 2) * 128 + 1 * k.val = k.val; omega))
  · intro k
    show V c main_arg5 (((cfg1.win 2).blk t).view.emb (ix2 k q)) = _
    exact congrArg (V c main_arg5) (funext fun a => Fin.ext (by
      match a with
      | ⟨0, _⟩ => show win1_2.index t (0 : Fin 2) * 128 + 1 * k.val = k.val; omega
      | ⟨1, _⟩ => show win1_2.index t (1 : Fin 2) * 128 + 1 * q.val = q.val; omega))
  · intro k
    show V c main_arg7 (((cfg1.win 4).blk t).view.emb (ix2 k q)) = _
    exact congrArg (V c main_arg7) (funext fun a => Fin.ext (by
      match a with
      | ⟨0, _⟩ => show win1_4.index t (0 : Fin 2) * 128 + 1 * k.val = k.val; omega
      | ⟨1, _⟩ => show win1_4.index t (1 : Fin 2) * 128 + 1 * q.val = q.val; omega))
  · show V c main_arg6 (((cfg1.win 3).blk t).view.emb (ix1 q)) = _
    exact congrArg (V c main_arg6) (funext fun a => Fin.ext (by
      match a with
      | ⟨0, _⟩ => show win1_3.index t (0 : Fin 1) * 128 + 1 * q.val = q.val; omega))

/-- An index of the result array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Node r is written by the point r / 5000: the ten blocks tile the result array. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have h10 : cfg1.N = 10 := N_1
  have ht : (i 0).val / 5000 < cfg1.N := by omega
  obtain ⟨-, -, -, -, -, -, -, -, -, e50, e51⟩ := idx1 ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    omega

/-- After the second launch its result array is the stage function of the arrays the launch found. -/
theorem final1 (c : Dev nD) : (dat1 V c).arrAt 5 cfg1.N
    = Cert.Sage.stage (V c main_v37) (V c main_v25) (V c main_arg5) (V c main_arg6) (V c main_arg7) :=
  (dat1 V c).arrAt_eq_of_cover 5 _ (fun t _ => flushed1 V c t) cover1

end Cert.KernelIdeal.Blocks

end
-- ==== Proof.KValue.lean ====
/-
  The kernel's result as one function of its eight arguments, on the extended reals. The hidden features are the
  clipped stage function of the mean aggregate of the input features and the input features themselves, under the first
  layer's weights and bias; the result is the stage function of the mean aggregate of the hidden features and the hidden
  features, under the second layer's. The run reaches it by walking the result array back through the program: the
  second launch leaves the stage function of what it finds; what it finds is the second aggregate (a host stretch of
  the first launch's result and the three edge-derived arrays, which no launch touches) and the first launch's result;
  the first launch leaves the clipped stage function of what it finds, the first aggregate and the arguments.
-/
import proofs.«150871_j80075370266803_1_alg».proof.Proof.KRun
import proofs.«150871_j80075370266803_1_alg».proof.Proof.KHost
import proofs.«150871_j80075370266803_1_alg».proof.Proof.KBlocks
import proofs.«150871_j80075370266803_1_alg».proof.Proof.KBlocks1
import proofs.«150871_j80075370266803_1_alg».proof.Proof.Spec

set_option maxRecDepth 16384

noncomputable section

namespace Cert.KernelIdeal.Result

open Cert.KernelIdeal Cert.KernelIdeal.Gen Cert.KernelIdeal.HostSide Cert.KernelIdeal.Blocks
open Idealize.ShloMosaic Idealize.ShloMosaic.TcCoe Idealize.SL.Sem Idealize.ShloMosaic.StableHlo

/-- The first layer's output: the clipped stage over the mean aggregate of the inputs. -/
def hidden (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : (⟨S50000x128, .f32⟩ : BufTy).Contents (Elt Ideal) :=
  Cert.Sage.stageRelu (aggMean (srcOf x1) (dstOf x1) (invDeg (dstOf x1)) x0) x0 x2 x3 x4

/-- The two layers. -/
def network (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) : (⟨S50000x128, .f32⟩ : BufTy).Contents (Elt Ideal) :=
  Cert.Sage.stage (aggMean (srcOf x1) (dstOf x1) (invDeg (dstOf x1)) (hidden x0 x1 x2 x3 x4)) (hidden x0 x1 x2 x3 x4) x5 x6 x7

variable (m : (ℓ : Loc nD τ sig) → Buf (Elt Ideal) ℓ) (ρ : Dev nD → PrngReg)

/-! ## Buffers a host stretch does not write -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

theorem W3_hidden (c : Dev nD) : W3 m ρ c (Proc.devRef .tc main_v25) = W2 m ρ c (Proc.devRef .tc main_v25) := by
  show StableHlo.after hostOps1 (W2 m ρ c) (Proc.devRef .tc main_v25) = _
  after_results_simp <;> rfl
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl
theorem W3_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl

/-! ## The result array, walked back to the arguments -/

/-- What the first launch leaves: the hidden features of the arguments. -/
theorem hidden_eq (c : Dev nD) : W2 m ρ c (Proc.devRef .tc main_v25) = (hidden (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ((final0 (V1 m ρ) c).trans ?_)
  have a : V1 m ρ c main_v24 = (aggMean (srcOf (m ((c : Thread nD τ).loc main_arg1))) (dstOf (m ((c : Thread nD τ).loc main_arg1))) (invDeg (dstOf (m ((c : Thread nD τ).loc main_arg1)))) (m ((c : Thread nD τ).loc main_arg0))) := W1_agg m ρ c
  have b0 : V1 m ρ c main_arg0 = (m ((c : Thread nD τ).loc main_arg0)) := W1_arg0 m ρ c
  have b2 : V1 m ρ c main_arg2 = (m ((c : Thread nD τ).loc main_arg2)) := W1_arg2 m ρ c
  have b3 : V1 m ρ c main_arg3 = (m ((c : Thread nD τ).loc main_arg3)) := W1_arg3 m ρ c
  have b4 : V1 m ρ c main_arg4 = (m ((c : Thread nD τ).loc main_arg4)) := W1_arg4 m ρ c
  unfold hidden
  rw [a, b0, b2, b3, b4]

theorem result_eq (c : Dev nD) : W4 m ρ c (Proc.devRef .tc main_v38)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e1 : W2 m ρ c (Proc.devRef .tc main_v1) = srcOf (m ((c : Thread nD τ).loc main_arg1)) := (W2_of_ne m ρ c main_v1 (by decide)).trans (W1_src m ρ c)
  have e3 : W2 m ρ c (Proc.devRef .tc main_v3) = dstOf (m ((c : Thread nD τ).loc main_arg1)) := (W2_of_ne m ρ c main_v3 (by decide)).trans (W1_dst m ρ c)
  have e12 : W2 m ρ c (Proc.devRef .tc main_v12) = invDeg (dstOf (m ((c : Thread nD τ).loc main_arg1))) := (W2_of_ne m ρ c main_v12 (by decide)).trans (W1_inv m ρ c)
  have eH := hidden_eq m ρ c
  have e37 : V3 m ρ c main_v37 = (aggMean (srcOf (m ((c : Thread nD τ).loc main_arg1))) (dstOf (m ((c : Thread nD τ).loc main_arg1))) (invDeg (dstOf (m ((c : Thread nD τ).loc main_arg1)))) (hidden (m ((c : Thread nD τ).loc main_arg0)) (m ((c : Thread nD τ).loc main_arg1)) (m ((c : Thread nD τ).loc main_arg2)) (m ((c : Thread nD τ).loc main_arg3)) (m ((c : Thread nD τ).loc main_arg4)))) := by
    refine (W3_agg m ρ c).trans ?_
    rw [e1, e3, e12, eH]
  have e25 : V3 m ρ c main_v25 = (hidden (m ((c : Thread nD τ).loc main_arg0)) (m ((c : Thread nD τ).loc main_arg1)) (m ((c : Thread nD τ).loc main_arg2)) (m ((c : Thread nD τ).loc main_arg3)) (m ((c : Thread nD τ).loc main_arg4))) := (W3_hidden m ρ c).trans eH
  have e5 : V3 m ρ c main_arg5 = (m ((c : Thread nD τ).loc main_arg5)) := (W3_arg5 m ρ c).trans ((W2_of_ne m ρ c main_arg5 (by decide)).trans (W1_arg5 m ρ c))
  have e6 : V3 m ρ c main_arg6 = (m ((c : Thread nD τ).loc main_arg6)) := (W3_arg6 m ρ c).trans ((W2_of_ne m ρ c main_arg6 (by decide)).trans (W1_arg6 m ρ c))
  have e7 : V3 m ρ c main_arg7 = (m ((c : Thread nD τ).loc main_arg7)) := (W3_arg7 m ρ c).trans ((W2_of_ne m ρ c main_arg7 (by decide)).trans (W1_arg7 m ρ c))
  refine (W4_arr m ρ c 5).trans ((final1 (V3 m ρ) c).trans ?_)
  unfold network
  rw [e37, e25, e5, e6, e7]

/-- The idealized kernel's run: the result array ends at the network of the arguments, the arguments unchanged. -/
theorem run : θ_run defs (onTc (τ := τ) (main (F := Ideal))) ⟨m, fun _ => 0, ρ⟩ (fun r => ∀ c : Dev nD,
      r.2.mem ((c.tc : Thread nD τ).loc main_v38)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Named.run m ρ)

end Cert.KernelIdeal.Result

end
-- ==== Proof.RefValue.lean ====
/-
  The reference, stage by stage, on the extended reals. Its first-stage result (the clipped sum, `main_v31`) is the
  stage function of its first aggregate and the input features; its final result is the stage function of its second
  aggregate and the first-stage result. A host product of a [50000, 128] array with a [128, 128] matrix read at (r, c) is
  the sum over k of entry (r, k) times entry (k, c); the bias, made a row and repeated over the nodes, reads as the bias
  at c; the three are added in the order the stage function adds them.
-/
import proofs.«150871_j80075370266803_1_alg».proof.Proof.Gen.ReferenceIdeal.Run
import proofs.«150871_j80075370266803_1_alg».proof.Proof.Gen.ReferenceIdeal.Read
import proofs.«150871_j80075370266803_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.TcCoe

/-- The first stage: the clipped sum over the first aggregate and the input features. -/
theorem first_stage (x0 : (⟨S50000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v31 (F := Ideal) x0 x1 x2 x3 x4 = Cert.Sage.stageRelu (val_main_v24 (F := Ideal) x0 x1) x0 x2 x3 x4 := by
  funext i
  obtain ⟨p, q, rfl⟩ : ∃ (p : Fin 50000) (q : Fin 128), i = ix2 p q := ⟨i 0, i 1, eq_ix2 i⟩
  rw [Cert.Sage.stageRelu_ix2]
  unfold Cert.Sage.stageAt
  rw [val_main_v31_apply, val_main_v30_apply, val_main_v28_apply, val_main_v25_apply, val_main_v27_apply, val_main_v26_apply,
    val_main_v29_apply, val_main_call0_v0_apply, val_main_call0_cst_apply]
  generalize val_main_v24 (F := Ideal) x0 x1 = agg
  have hl25 : ∀ k : Fin 128, lidx_main_v25 (ix2 p q) k = ix2 p k := fun k => funext fun a => Fin.ext (by
    match a with
    | ⟨0, _⟩ => rfl
    | ⟨1, _⟩ => rfl)
  have hr25 : ∀ k : Fin 128, ridx_main_v25 (ix2 p q) k = ix2 k q := fun k => funext fun a => Fin.ext (by
    match a with
    | ⟨0, _⟩ => rfl
    | ⟨1, _⟩ => rfl)
  have hl29 : ∀ k : Fin 128, lidx_main_v29 (ix2 p q) k = ix2 p k := fun k => funext fun a => Fin.ext (by
    match a with
    | ⟨0, _⟩ => rfl
    | ⟨1, _⟩ => rfl)
  have hr29 : ∀ k : Fin 128, ridx_main_v29 (ix2 p q) k = ix2 k q := fun k => funext fun a => Fin.ext (by
    match a with
    | ⟨0, _⟩ => rfl
    | ⟨1, _⟩ => rfl)
  have hb : idx_main_v26 (idx_main_v27 (ix2 p q)) = ix1 q := funext fun a => Fin.ext (by
    match a with
    | ⟨0, _⟩ => rfl)
  simp only [hl25, hr25, hl29, hr29, hb]
  show max _ (Ideal.ofBits .f32 0x00000000#32) = _
  rw [Ideal.ofBits_zero_f32]
  rfl

/-- The second stage: the sum over the second aggregate and the first-stage result, not clipped. -/
theorem second_stage (x0 : (⟨S50000x128, .f32⟩ : BufTy).Contents (Elt Ideal)) (x1 : (⟨S2x800000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v49 (F := Ideal) x0 x1 x2 x3 x4 x5 x6 x7
      = Cert.Sage.stage (val_main_v43 (F := Ideal) x0 x1 x2 x3 x4) (val_main_v31 (F := Ideal) x0 x1 x2 x3 x4) x5 x6 x7 := by
  funext i
  obtain ⟨p, q, rfl⟩ : ∃ (p : Fin 50000) (q : Fin 128), i = ix2 p q := ⟨i 0, i 1, eq_ix2 i⟩
  rw [Cert.Sage.stage_ix2]
  unfold Cert.Sage.stageAt
  rw [val_main_v49_apply, val_main_v47_apply, val_main_v44_apply, val_main_v46_apply, val_main_v45_apply, val_main_v48_apply]
  generalize val_main_v43 (F := Ideal) x0 x1 x2 x3 x4 = agg
  generalize val_main_v31 (F := Ideal) x0 x1 x2 x3 x4 = h
  have hl44 : ∀ k : Fin 128, lidx_main_v44 (ix2 p q) k = ix2 p k := fun k => funext fun a => Fin.ext (by
    match a with
    | ⟨0, _⟩ => rfl
    | ⟨1, _⟩ => rfl)
  have hr44 : ∀ k : Fin 128, ridx_main_v44 (ix2 p q) k = ix2 k q := fun k => funext fun a => Fin.ext (by
    match a with
    | ⟨0, _⟩ => rfl
    | ⟨1, _⟩ => rfl)
  have hl48 : ∀ k : Fin 128, lidx_main_v48 (ix2 p q) k = ix2 p k := fun k => funext fun a => Fin.ext (by
    match a with
    | ⟨0, _⟩ => rfl
    | ⟨1, _⟩ => rfl)
  have hr48 : ∀ k : Fin 128, ridx_main_v48 (ix2 p q) k = ix2 k q := fun k => funext fun a => Fin.ext (by
    match a with
    | ⟨0, _⟩ => rfl
    | ⟨1, _⟩ => rfl)
  have hb : idx_main_v45 (idx_main_v46 (ix2 p q)) = ix1 q := funext fun a => Fin.ext (by
    match a with
    | ⟨0, _⟩ => rfl)
  simp only [hl44, hr44, hl48, hr48, hb]
  rfl

end Cert.ReferenceIdeal.RefValue

end
-- ==== Proof.Bridge.lean ====
/-
  The two programs compute one function. The reference's first aggregate is the mean aggregate of the input features
  and its second the mean aggregate of its own first-stage result, over the same source row, destination row and
  reciprocal in-degrees that the kernel's program computes from the edge list: the same host operations on the same
  words, so the same function applied on both sides, never opened. With each stage equal to the stage function of its
  aggregate, the reference's result is the network of the arguments.
-/
import proofs.«150871_j80075370266803_1_alg».proof.Proof.KValue
import proofs.«150871_j80075370266803_1_alg».proof.Proof.RefValue

noncomputable section

namespace Cert.Bridge

open Idealize.ShloMosaic
open Cert.ReferenceIdeal.Read Cert.ReferenceIdeal.RefValue
open Cert.KernelIdeal.HostSide Cert.KernelIdeal.Result

/-- The reference's first aggregate is the mean aggregate of the inputs. -/
theorem agg_first (x0 : (⟨Cert.ReferenceIdeal.S50000x128, .f32⟩ : BufTy).Contents (Elt Ideal)) (x1 : (⟨Cert.ReferenceIdeal.S2x800000, .i32⟩ : BufTy).Contents (Elt Ideal)) :
    val_main_v24 (F := Ideal) x0 x1 = aggMean (F := Ideal) (srcOf x1) (dstOf x1) (invDeg (dstOf x1)) x0 := rfl

/-- Its second aggregate is the mean aggregate of its first-stage result. -/
theorem agg_second (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) (x4 : (⟨Cert.ReferenceIdeal.S128x128, .f32⟩ : BufTy).Contents (Elt Ideal)) :
    val_main_v43 (F := Ideal) x0 x1 x2 x3 x4
      = aggMean (F := Ideal) (srcOf x1) (dstOf x1) (invDeg (dstOf x1)) (val_main_v31 (F := Ideal) x0 x1 x2 x3 x4) := rfl

/-- The reference's first-stage result is the hidden features. -/
theorem hidden_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) (x4 : (⟨Cert.ReferenceIdeal.S128x128, .f32⟩ : BufTy).Contents (Elt Ideal)) :
    val_main_v31 (F := Ideal) x0 x1 x2 x3 x4 = hidden x0 x1 x2 x3 x4 := by
  rw [first_stage, agg_first]
  rfl

/-- The reference's result is the network of the arguments. -/
theorem network_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 : (⟨Cert.ReferenceIdeal.S128x128, .f32⟩ : BufTy).Contents (Elt Ideal)) :
    val_main_v49 (F := Ideal) x0 x1 x2 x3 x4 x5 x6 x7 = network x0 x1 x2 x3 x4 x5 x6 x7 := by
  rw [second_stage, agg_second, hidden_eq]
  rfl

end Cert.Bridge

end
-- ==== Proof.lean ====
/-
  A two-layer GraphSAGE network with mean aggregation: the fused kernel program against the plain reference.

  Both programs compute, on the host and with the same operations, the edges' sources and destinations, the reciprocal
  in-degrees, and the mean aggregate of a feature array (gather the source rows, add them into the destination rows,
  scale each row). What differs is one stage: the reference forms agg·Wl + b + h·Wr with two whole host products, while
  the kernel program launches a kernel over ten blocks of 5000 nodes that forms the same three terms block by block,
  rounding its product operands to bf16 first, which changes nothing on the extended reals. At every entry both are
  (Σ_k agg(r,k)·Wl(k,c) + b(c)) + Σ_k h(r,k)·Wr(k,c), added in the same order, clipped at zero after the first stage.
  So the first-stage results agree, hence the second aggregates, hence the results; no input needs to be finite.

  The kernel's frames are the generated ones; the reference's frame is its generated run with the result dropped; the
  idealization rewrote nothing.
-/
import proofs.«150871_j80075370266803_1_alg».proof.Defs
import proofs.«150871_j80075370266803_1_alg».proof.Proof.Gen.Kernel
import proofs.«150871_j80075370266803_1_alg».proof.Proof.Gen.Kernel.Frame
import proofs.«150871_j80075370266803_1_alg».proof.Proof.Gen.KernelIdeal
import proofs.«150871_j80075370266803_1_alg».proof.Proof.Gen.KernelIdeal.Frame
import proofs.«150871_j80075370266803_1_alg».proof.Proof.Gen.ReferenceIdeal
import proofs.«150871_j80075370266803_1_alg».proof.Proof.Gen.ReferenceIdeal.Run
import proofs.«150871_j80075370266803_1_alg».proof.Proof.Gen.ReferenceIdeal.Read
import proofs.«150871_j80075370266803_1_alg».proof.Proof.Gen.Pre_finite_inputs
import proofs.«150871_j80075370266803_1_alg».proof.Proof.KValue
import proofs.«150871_j80075370266803_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result array at the network of the (agreeing) arguments. -/
theorem algebraic : Cert.algebraic_KernelIdeal_ReferenceIdeal := by
  intro m ρ m' ρ' _ hagree
  refine ⟨fun c => Cert.KernelIdeal.Result.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact Cert.Bridge.network_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
